-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S8x4096 : Shape := ⟨2, ![8, 4096]⟩
abbrev S4096x8 : Shape := ⟨2, ![4096, 8]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_
  bcast_S_S8x4096 : S_.BroadcastsInDim S8x4096 (![] : Fin 0 → Fin S8x4096.rank)
  reducesTo_S8x4096_S_d0_1 : S8x4096.ReducesTo [0, 1] S_
  bcast_S_S4096x8 : S_.BroadcastsInDim S4096x8 (![] : Fin 0 → Fin S4096x8.rank)
  reducesTo_S4096x8_S_d0_1 : S4096x8.ReducesTo [0, 1] S_
  reducesTo_S_S_d : S_.ReducesTo [] S_

variable [Facts]

def fn_part2 {F : FTy → Type} [FloatOps F] (main_arg7 : FVec F S8x4096 .f32) (main_arg8 : FVec F S4096x8 .f32) (main_arg9 : FVec F S_ .f32) (main_v33 : IVec S_ 1) : IVec S_ 1 :=
  let main_v34 : FVec F S8x4096 .f32 := Host.absf main_arg7
  let main_cst_12 : FVec F S_ .f32 := constant S_ .f32 0x7F800000#32
  let main_v35 : FVec F S8x4096 .f32 := broadcastInDim S8x4096 ![] bcast_S_S8x4096 main_cst_12
  let main_v36 : IVec S8x4096 1 := cmpf .olt main_v34 main_v35
  let main_c_13 : IVec S_ 1 := constantI S_ 1 1#1
  let main_v37 : IVec S_ 1 := (fun x v => Host.reduce IntOp.andi x v reducesTo_S8x4096_S_d0_1 h_S_) main_v36 main_c_13
  let main_v38 : IVec S_ 1 := andi main_v33 main_v37
  let main_v39 : FVec F S4096x8 .f32 := Host.absf main_arg8
  let main_cst_14 : FVec F S_ .f32 := constant S_ .f32 0x7F800000#32
  let main_v40 : FVec F S4096x8 .f32 := broadcastInDim S4096x8 ![] bcast_S_S4096x8 main_cst_14
  let main_v41 : IVec S4096x8 1 := cmpf .olt main_v39 main_v40
  let main_c_15 : IVec S_ 1 := constantI S_ 1 1#1
  let main_v42 : IVec S_ 1 := (fun x v => Host.reduce IntOp.andi x v reducesTo_S4096x8_S_d0_1 h_S_) main_v41 main_c_15
  let main_v43 : IVec S_ 1 := andi main_v38 main_v42
  let main_v44 : FVec F S_ .f32 := Host.absf main_arg9
  let main_cst_16 : FVec F S_ .f32 := constant S_ .f32 0x7F800000#32
  let main_v45 : IVec S_ 1 := cmpf .olt main_v44 main_cst_16
  let main_c_17 : IVec S_ 1 := constantI S_ 1 1#1
  let main_v46 : IVec S_ 1 := (fun x v => Host.reduce IntOp.andi x v reducesTo_S_S_d h_S_) main_v45 main_c_17
  let main_v47 : IVec S_ 1 := andi main_v43 main_v46
  main_v47

def fn_part1 {F : FTy → Type} [FloatOps F] (main_arg4 : FVec F S4096x16 .f32) (main_arg5 : FVec F S4096 .f32) (main_arg6 : FVec F S4096 .f32) (main_arg7 : FVec F S8x4096 .f32) (main_arg8 : FVec F S4096x8 .f32) (main_arg9 : FVec F S_ .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S4096x16 .f32 := Host.absf main_arg4
  let main_cst_6 : FVec F S_ .f32 := constant S_ .f32 0x7F800000#32
  let main_v20 : FVec F S4096x16 .f32 := broadcastInDim S4096x16 ![] bcast_S_S4096x16 main_cst_6
  let main_v21 : IVec S4096x16 1 := cmpf .olt main_v19 main_v20
  let main_c_7 : IVec S_ 1 := constantI S_ 1 1#1
  let main_v22 : IVec S_ 1 := (fun x v => Host.reduce IntOp.andi x v reducesTo_S4096x16_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_arg9 main_v33

def fn {F : FTy → Type} [FloatOps F] (main_arg0 : FVec F S4x2048x4096 .f32) (main_arg1 : FVec F S4096x4096 .f32) (main_arg2 : FVec F S4096 .f32) (main_arg3 : FVec F S16x4096 .f32) (main_arg4 : FVec F S4096x16 .f32) (main_arg5 : FVec F S4096 .f32) (main_arg6 : FVec F S4096 .f32) (main_arg7 : FVec F S8x4096 .f32) (main_arg8 : FVec F S4096x8 .f32) (main_arg9 : FVec F S_ .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg4 main_arg5 main_arg6 main_arg7 main_arg8 main_arg9 main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S8x4096 : Shape := ⟨2, ![8, 4096]⟩
abbrev S4096x8 : Shape := ⟨2, ![4096, 8]⟩
abbrev S_ : Shape := ⟨0, ![]⟩
abbrev S8192x4096 : Shape := ⟨2, ![8192, 4096]⟩
abbrev S1x1 : Shape := ⟨2, ![1, 1]⟩
abbrev S128x4096 : Shape := ⟨2, ![128, 4096]⟩
abbrev S512x4096 : Shape := ⟨2, ![512, 4096]⟩
abbrev S512x16 : Shape := ⟨2, ![512, 16]⟩
abbrev S512x8 : Shape := ⟨2, ![512, 8]⟩
abbrev S512 : Shape := ⟨1, ![512]⟩
abbrev S128x512 : Shape := ⟨2, ![128, 512]⟩
abbrev S1x512 : Shape := ⟨2, ![1, 512]⟩
abbrev S128x16 : Shape := ⟨2, ![128, 16]⟩
abbrev S128 : Shape := ⟨1, ![128]⟩
abbrev S128x1 : Shape := ⟨2, ![128, 1]⟩
abbrev S1x4096 : Shape := ⟨2, ![1, 4096]⟩
abbrev S128x8 : Shape := ⟨2, ![128, 8]⟩

abbrev nBuf : Space → Nat
  | .hbm => 14
  | .vmem => 17
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S4096, .f32⟩
  | .hbm, ⟨6, _⟩ => ⟨S4096, .f32⟩
  | .hbm, ⟨7, _⟩ => ⟨S8x4096, .f32⟩
  | .hbm, ⟨8, _⟩ => ⟨S4096x8, .f32⟩
  | .hbm, ⟨9, _⟩ => ⟨S_, .f32⟩
  | .hbm, ⟨10, _⟩ => ⟨S8192x4096, .f32⟩
  | .hbm, ⟨11, _⟩ => ⟨S1x1, .f32⟩
  | .hbm, ⟨12, _⟩ => ⟨S8192x4096, .f32⟩
  | .hbm, ⟨13, _⟩ => ⟨S4x2048x4096, .f32⟩
  | .local _ .vmem, ⟨0, _⟩ => ⟨S128x4096, .f32⟩
  | .local _ .vmem, ⟨1, _⟩ => ⟨S128x4096, .f32⟩
  | .local _ .vmem, ⟨2, _⟩ => ⟨S512x4096, .f32⟩
  | .local _ .vmem, ⟨3, _⟩ => ⟨S512x4096, .f32⟩
  | .local _ .vmem, ⟨4, _⟩ => ⟨S16x4096, .f32⟩
  | .local _ .vmem, ⟨5, _⟩ => ⟨S512x16, .f32⟩
  | .local _ .vmem, ⟨6, _⟩ => ⟨S512x16, .f32⟩
  | .local _ .vmem, ⟨7, _⟩ => ⟨S4096, .f32⟩
  | .local _ .vmem, ⟨8, _⟩ => ⟨S4096, .f32⟩
  | .local _ .vmem, ⟨9, _⟩ => ⟨S8x4096, .f32⟩
  | .local _ .vmem, ⟨10, _⟩ => ⟨S512x8, .f32⟩
  | .local _ .vmem, ⟨11, _⟩ => ⟨S512x8, .f32⟩
  | .local _ .vmem, ⟨12, _⟩ => ⟨S512, .f32⟩
  | .local _ .vmem, ⟨13, _⟩ => ⟨S512, .f32⟩
  | .local _ .vmem, ⟨14, _⟩ => ⟨S1x1, .f32⟩
  | .local _ .vmem, ⟨15, _⟩ => ⟨S128x512, .f32⟩
  | .local _ .vmem, ⟨16, _⟩ => ⟨S128x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![64, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S16x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x8 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

class Facts₀ : Prop where
  shapeCasts_S4x2048x4096_S8192x4096 : S4x2048x4096.ShapeCasts S8192x4096
  shapeCasts_S_S1x1 : S_.ShapeCasts S1x1
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  inb_S512_S512_0 : ∀ a, (![0] : Fin 1 → Nat) a + S512.size a ≤ S512.size a
  h_S512 : 0 < S512.numel
  shapeCasts_S512_S1x512 : S512.ShapeCasts S1x512
  broadcasts_S1x512_S128x512 : S1x512.Broadcasts S128x512
  inb_S16x4096_S16x4096_0_0 : ∀ a, (![0, 0] : Fin 2 → Nat) a + S16x4096.size a ≤ S16x4096.size a
  h_S16x4096 : 0 < S16x4096.numel
  inb_S512x16_S512x16_0_0 : ∀ a, (![0, 0] : Fin 2 → Nat) a + S512x16.size a ≤ S512x16.size a
  h_S512x16 : 0 < S512x16.numel
  reduces_S128x4096_S128 : S128x4096.Reduces [1] S128
  shapeCasts_S128_S128x1 : S128.ShapeCasts S128x1
  broadcasts_S128x1_S128x4096 : S128x1.Broadcasts S128x4096
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S128x4096 : S1x4096.Broadcasts S128x4096
  inb_S8x4096_S8x4096_0_0 : ∀ a, (![0, 0] : Fin 2 → Nat) a + S8x4096.size a ≤ S8x4096.size a
  h_S8x4096 : 0 < S8x4096.numel
  inb_S512x8_S512x8_0_0 : ∀ a, (![0, 0] : Fin 2 → Nat) a + S512x8.size a ≤ S512x8.size a
  h_S512x8 : 0 < S512x8.numel
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S128x512_S128x512_0_0 : ∀ a, (![0, 0] : Fin 2 → Nat) a + S128x512.size a ≤ S128x512.size a
  h_S128x512 : 0 < S128x512.numel
  shapeCasts_S8192x4096_S4x2048x4096 : S8192x4096.ShapeCasts S4x2048x4096
  dot_S128x4096_S512x4096_S128x512_1_1_0_0_n_n_wf : DotDims.WF S128x4096 S512x4096 S128x512 [1] [1] [0] [0] [] []
  dot_S128x4096_S16x4096_S128x16_1_1_0_0_n_n_wf : DotDims.WF S128x4096 S16x4096 S128x16 [1] [1] [0] [0] [] []
  dot_S128x16_S512x16_S128x512_1_1_0_0_n_n_wf : DotDims.WF S128x16 S512x16 S128x512 [1] [1] [0] [0] [] []
  dot_S128x4096_S8x4096_S128x8_1_1_0_0_n_n_wf : DotDims.WF S128x4096 S8x4096 S128x8 [1] [1] [0] [0] [] []
  dot_S128x8_S512x8_S128x512_1_1_0_0_n_n_wf : DotDims.WF S128x8 S512x8 S128x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S8192x4096.size a
  hwx0_0 : ∀ i : grid0.Coords, EltTy.bits .f32 = 32 ∨ (Rect.block (s := S8192x4096) S128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .f32 = 32 ∨ (Rect.block (s := S4096x4096) S512x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x4096.size a ≤ S16x4096.size a
  hwx0_2 : ∀ i : grid0.Coords, EltTy.bits .f32 = 32 ∨ (Rect.block (s := S16x4096) S16x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x16.size a ≤ S4096x16.size a
  hwx0_3 : ∀ i : grid0.Coords, EltTy.bits .f32 = 32 ∨ (Rect.block (s := S4096x16) S512x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096.size a ≤ S4096.size a
  hwx0_4 : ∀ i : grid0.Coords, EltTy.bits .f32 = 32 ∨ (Rect.block (s := S4096) S4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096.size a ≤ S4096.size a
  hwx0_5 : ∀ i : grid0.Coords, EltTy.bits .f32 = 32 ∨ (Rect.block (s := S4096) S4096.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8x4096.size a ≤ S8x4096.size a
  hwx0_6 : ∀ i : grid0.Coords, EltTy.bits .f32 = 32 ∨ (Rect.block (s := S8x4096) S8x4096.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x8.size a ≤ S4096x8.size a
  hwx0_7 : ∀ i : grid0.Coords, EltTy.bits .f32 = 32 ∨ (Rect.block (s := S4096x8) S512x8.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512.size a ≤ S4096.size a
  hwx0_8 : ∀ i : grid0.Coords, EltTy.bits .f32 = 32 ∨ (Rect.block (s := S4096) S512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x512.size a ≤ S8192x4096.size a
  hwx0_10 : ∀ i : grid0.Coords, EltTy.bits .f32 = 32 ∨ (Rect.block (s := S8192x4096) S128x512.size (cc0_transform_10 i) (hinb0_10 i)).WholeWords (EltTy.packing .f32)

variable [Facts₀]

def dot_S128x4096_S512x4096_S128x512_1_1_0_0_n_n : DotDims S128x4096 S512x4096 S128x512 where
  lhsContracting := [1]
  rhsContracting := [1]
  lhsNonContracting := [0]
  rhsNonContracting := [0]
  lhsBatch := []
  rhsBatch := []
  wf := dot_S128x4096_S512x4096_S128x512_1_1_0_0_n_n_wf
def dot_S128x4096_S16x4096_S128x16_1_1_0_0_n_n : DotDims S128x4096 S16x4096 S128x16 where
  lhsContracting := [1]
  rhsContracting := [1]
  lhsNonContracting := [0]
  rhsNonContracting := [0]
  lhsBatch := []
  rhsBatch := []
  wf := dot_S128x4096_S16x4096_S128x16_1_1_0_0_n_n_wf
def dot_S128x16_S512x16_S128x512_1_1_0_0_n_n : DotDims S128x16 S512x16 S128x512 where
  lhsContracting := [1]
  rhsContracting := [1]
  lhsNonContracting := [0]
  rhsNonContracting := [0]
  lhsBatch := []
  rhsBatch := []
  wf := dot_S128x16_S512x16_S128x512_1_1_0_0_n_n_wf
def dot_S128x4096_S8x4096_S128x8_1_1_0_0_n_n : DotDims S128x4096 S8x4096 S128x8 where
  lhsContracting := [1]
  rhsContracting := [1]
  lhsNonContracting := [0]
  rhsNonContracting := [0]
  lhsBatch := []
  rhsBatch := []
  wf := dot_S128x4096_S8x4096_S128x8_1_1_0_0_n_n_wf
def dot_S128x8_S512x8_S128x512_1_1_0_0_n_n : DotDims S128x8 S512x8 S128x512 where
  lhsContracting := [1]
  rhsContracting := [1]
  lhsNonContracting := [0]
  rhsNonContracting := [0]
  lhsBatch := []
  rhsBatch := []
  wf := dot_S128x8_S512x8_S128x512_1_1_0_0_n_n_wf

abbrev win0_0 : Pipeline.Window sig grid0 :=
  Pipeline.Window.ofSpec (Memref.whole main_v0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S16x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S512x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S8x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S512x8.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg2) S512.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v1) S1x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v2) S128x512.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S8x4096 : Shape := ⟨2, ![8, 4096]⟩
abbrev S4096x8 : Shape := ⟨2, ![4096, 8]⟩
abbrev S_ : Shape := ⟨0, ![]⟩
abbrev S1x1x4096 : Shape := ⟨3, ![1, 1, 4096]⟩
abbrev S4x2048x16 : Shape := ⟨3, ![4, 2048, 16]⟩
abbrev S4x2048 : Shape := ⟨2, ![4, 2048]⟩
abbrev S4x2048x1 : Shape := ⟨3, ![4, 2048, 1]⟩
abbrev S4x2048x8 : Shape := ⟨3, ![4, 2048, 8]⟩

abbrev nBuf : Space → Nat
  | .hbm => 67
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S4096, .f32⟩
  | .hbm, ⟨6, _⟩ => ⟨S4096, .f32⟩
  | .hbm, ⟨7, _⟩ => ⟨S8x4096, .f32⟩
  | .hbm, ⟨8, _⟩ => ⟨S4096x8, .f32⟩
  | .hbm, ⟨9, _⟩ => ⟨S_, .f32⟩
  | .hbm, ⟨10, _⟩ => ⟨S4x2048x4096, .f32⟩
  | .hbm, ⟨11, _⟩ => ⟨S1x1x4096, .f32⟩
  | .hbm, ⟨12, _⟩ => ⟨S4x2048x4096, .f32⟩
  | .hbm, ⟨13, _⟩ => ⟨S4x2048x4096, .f32⟩
  | .hbm, ⟨14, _⟩ => ⟨S4x2048x16, .f32⟩
  | .hbm, ⟨15, _⟩ => ⟨S4x2048x4096, .f32⟩
  | .hbm, ⟨16, _⟩ => ⟨S_, .f32⟩
  | .hbm, ⟨17, _⟩ => ⟨S4x2048x4096, .f32⟩
  | .hbm, ⟨18, _⟩ => ⟨S4x2048x4096, .f32⟩
  | .hbm, ⟨19, _⟩ => ⟨S_, .f32⟩
  | .hbm, ⟨20, _⟩ => ⟨S4x2048, .f32⟩
  | .hbm, ⟨21, _⟩ => ⟨S4x2048x1, .f32⟩
  | .hbm, ⟨22, _⟩ => ⟨S_, .f32⟩
  | .hbm, ⟨23, _⟩ => ⟨S4x2048x1, .f32⟩
  | .hbm, ⟨24, _⟩ => ⟨S4x2048x1, .f32⟩
  | .hbm, ⟨25, _⟩ => ⟨S4x2048x4096, .f32⟩
  | .hbm, ⟨26, _⟩ => ⟨S4x2048x4096, .f32⟩
  | .hbm, ⟨27, _⟩ => ⟨S4x2048x4096, .f32⟩
  | .hbm, ⟨28, _⟩ => ⟨S_, .f32⟩
  | .hbm, ⟨29, _⟩ => ⟨S4x2048, .f32⟩
  | .hbm, ⟨30, _⟩ => ⟨S4x2048x1, .f32⟩
  | .hbm, ⟨31, _⟩ => ⟨S_, .f32⟩
  | .hbm, ⟨32, _⟩ => ⟨S4x2048x1, .f32⟩
  | .hbm, ⟨33, _⟩ => ⟨S4x2048x1, .f32⟩
  | .hbm, ⟨34, _⟩ => ⟨S4x2048x4096, .f32⟩
  | .hbm, ⟨35, _⟩ => ⟨S4x2048x4096, .f32⟩
  | .hbm, ⟨36, _⟩ => ⟨S_, .f32⟩
  | .hbm, ⟨37, _⟩ => ⟨S4x2048x1, .f32⟩
  | .hbm, ⟨38, _⟩ => ⟨S4x2048x1, .f32⟩
  | .hbm, ⟨39, _⟩ => ⟨S4x2048x1, .f32⟩
  | .hbm, ⟨40, _⟩ => ⟨S4x2048x4096, .f32⟩
  | .hbm, ⟨41, _⟩ => ⟨S4x2048x4096, .f32⟩
  | .hbm, ⟨42, _⟩ => ⟨S1x1x4096, .f32⟩
  | .hbm, ⟨43, _⟩ => ⟨S4x2048x4096, .f32⟩
  | .hbm, ⟨44, _⟩ => ⟨S4x2048x4096, .f32⟩
  | .hbm, ⟨45, _⟩ => ⟨S1x1x4096, .f32⟩
  | .hbm, ⟨46, _⟩ => ⟨S4x2048x4096, .f32⟩
  | .hbm, ⟨47, _⟩ => ⟨S4x2048x4096, .f32⟩
  | .hbm, ⟨48, _⟩ => ⟨S4x2048x8, .f32⟩
  | .hbm, ⟨49, _⟩ => ⟨S4x2048x8, .f32⟩
  | .hbm, ⟨50, _⟩ => ⟨S4x2048x8, .f32⟩
  | .hbm, ⟨51, _⟩ => ⟨S_, .f32⟩
  | .hbm, ⟨52, _⟩ => ⟨S4x2048x8, .f32⟩
  | .hbm, ⟨53, _⟩ => ⟨S4x2048x8, .f32⟩
  | .hbm, ⟨54, _⟩ => ⟨S_, .f32⟩
  | .hbm, ⟨55, _⟩ => ⟨S4x2048x8, .f32⟩
  | .hbm, ⟨56, _⟩ => ⟨S4x2048x8, .f32⟩
  | .hbm, ⟨57, _⟩ => ⟨S4x2048x8, .f32⟩
  | .hbm, ⟨58, _⟩ => ⟨S4x2048x4096, .f32⟩
  | .hbm, ⟨59, _⟩ => ⟨S4x2048x4096, .f32⟩
  | .hbm, ⟨60, _⟩ => ⟨S4x2048x4096, .f32⟩
  | .hbm, ⟨61, _⟩ => ⟨S4x2048x4096, .f32⟩
  | .hbm, ⟨62, _⟩ => ⟨S_, .f32⟩
  | .hbm, ⟨63, _⟩ => ⟨S4x2048x4096, .f32⟩
  | .hbm, ⟨64, _⟩ => ⟨S4x2048x4096, .f32⟩
  | .hbm, ⟨65, _⟩ => ⟨S4x2048x4096, .f32⟩
  | .hbm, ⟨66, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_call0_v5 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_5 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S4x2048x4096 : S_.BroadcastsInDim S4x2048x4096 (![] : Fin 0 → Fin S4x2048x4096.rank)
  reducesTo_S4x2048x4096_S4x2048_d2 : S4x2048x4096.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x4096_0_1_2 : S4x2048x1.BroadcastsInDim S4x2048x4096 (![0, 1, 2] : Fin 3 → Fin S4x2048x4096.rank)
  bcast_S_S4x2048x8 : S_.BroadcastsInDim S4x2048x8 (![] : Fin 0 → Fin S4x2048x8.rank)
  dot_S4x2048x4096_S4096x4096_S4x2048x4096_2_1_01_0_n_n_wf : DotDims.WF S4x2048x4096 S4096x4096 S4x2048x4096 [2] [1] [0, 1] [0] [] []
  dot_S4x2048x4096_S16x4096_S4x2048x16_2_1_01_0_n_n_wf : DotDims.WF S4x2048x4096 S16x4096 S4x2048x16 [2] [1] [0, 1] [0] [] []
  dot_S4x2048x16_S4096x16_S4x2048x4096_2_1_01_0_n_n_wf : DotDims.WF S4x2048x16 S4096x16 S4x2048x4096 [2] [1] [0, 1] [0] [] []
  dot_S4x2048x4096_S8x4096_S4x2048x8_2_1_01_0_n_n_wf : DotDims.WF S4x2048x4096 S8x4096 S4x2048x8 [2] [1] [0, 1] [0] [] []
  dot_S4x2048x8_S4096x8_S4x2048x4096_2_1_01_0_n_n_wf : DotDims.WF S4x2048x8 S4096x8 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S16x4096_S4x2048x16_2_1_01_0_n_n : DotDims S4x2048x4096 S16x4096 S4x2048x16 where
  lhsContracting := [2]
  rhsContracting := [1]
  lhsNonContracting := [0, 1]
  rhsNonContracting := [0]
  lhsBatch := []
  rhsBatch := []
  wf := dot_S4x2048x4096_S16x4096_S4x2048x16_2_1_01_0_n_n_wf
def dot_S4x2048x16_S4096x16_S4x2048x4096_2_1_01_0_n_n : DotDims S4x2048x16 S4096x16 S4x2048x4096 where
  lhsContracting := [2]
  rhsContracting := [1]
  lhsNonContracting := [0, 1]
  rhsNonContracting := [0]
  lhsBatch := []
  rhsBatch := []
  wf := dot_S4x2048x16_S4096x16_S4x2048x4096_2_1_01_0_n_n_wf
def dot_S4x2048x4096_S8x4096_S4x2048x8_2_1_01_0_n_n : DotDims S4x2048x4096 S8x4096 S4x2048x8 where
  lhsContracting := [2]
  rhsContracting := [1]
  lhsNonContracting := [0, 1]
  rhsNonContracting := [0]
  lhsBatch := []
  rhsBatch := []
  wf := dot_S4x2048x4096_S8x4096_S4x2048x8_2_1_01_0_n_n_wf
def dot_S4x2048x8_S4096x8_S4x2048x4096_2_1_01_0_n_n : DotDims S4x2048x8 S4096x8 S4x2048x4096 where
  lhsContracting := [2]
  rhsContracting := [1]
  lhsNonContracting := [0, 1]
  rhsNonContracting := [0]
  lhsBatch := []
  rhsBatch := []
  wf := dot_S4x2048x8_S4096x8_S4x2048x4096_2_1_01_0_n_n_wf

class Facts : Prop extends Facts₀ where

variable [Facts]
-- ==== Proof.GatedLowRank.lean ====
/-
  One output entry of a linear layer with a gated low-rank correction, as a function of one input row.

  For an input row x of 4096 numbers and one output column — weight row w, bias b, the 16 low-rank coefficients bl of
  that column — with the low-rank factor A (16 rows of 4096):
      base    = Σ_d x_d · w_d + b
      lowRank = (Σ_r (Σ_d x_d · A_{r,d}) · bl_r) · 2.
  The gate first normalises the row: its mean μ and variance σ² are sums over the 4096 entries, each divided by 4096,
  and n_d = (x_d − μ) · rsqrt (σ² + ε) · γ_d + β_d. The normalised row is projected to 8 numbers by Wd, each passed
  through z ↦ z · logistic z, and the 8 results are combined with the column's coefficients wu:
      gate    = α · tanh (Σ_k silu (Σ_d n_d · Wd_{k,d}) · wu_k).
  The entry is base + (1 + gate) · lowRank. Every operation is the extended reals' own. The four float constants (2,
  4096, ε and the 1 added to the gate) are kept as the binary words both programs print, so none is ever evaluated.
-/
import Idealize.ShloMosaic.PureOps.Ideal

noncomputable section

open scoped BigOperators

namespace Cert.GatedLowRank

open Idealize.ShloMosaic

/-- The low-rank branch's scale, the float 2. -/
abbrev two : EReal := Ideal.ofBits .f32 0x40000000#32
/-- The row length as a float, 4096: the divisor of both means. -/
abbrev width : EReal := Ideal.ofBits .f32 0x45800000#32
/-- The float nearest 1e-5, added to the variance. -/
abbrev eps : EReal := Ideal.ofBits .f32 0x3727C5AC#32
/-- The float 1 the gate is added to. -/
abbrev one : EReal := Ideal.ofBits .f32 0x3F800000#32

/-- The mean of a row: its sum divided by 4096. -/
def mean (x : Fin 4096 → EReal) : EReal := Ideal.div (∑ d, x d) width

/-- The variance of a row: the sum of the squared deviations from the mean, divided by 4096. -/
def variance (x : Fin 4096 → EReal) : EReal := Ideal.div (∑ d, (x d - mean x) * (x d - mean x)) width

/-- The normalised row with scale γ and shift β. -/
def normed (x γ β : Fin 4096 → EReal) (d : Fin 4096) : EReal :=
  (x d - mean x) * Ideal.rsqrt (variance x + eps) * γ d + β d

/-- z ↦ z · logistic z. -/
def silu (z : EReal) : EReal := z * Ideal.logistic z

/-- The gate of one output column: α · tanh of the 8 activated projections combined with the column's coefficients. -/
def gate (x γ β : Fin 4096 → EReal) (Wd : Fin 8 → Fin 4096 → EReal) (wu : Fin 8 → EReal) (α : EReal) : EReal :=
  α * Ideal.tanh (∑ k, silu (∑ d, normed x γ β d * Wd k d) * wu k)

/-- The base linear layer's entry. -/
def base (x w : Fin 4096 → EReal) (b : EReal) : EReal := (∑ d, x d * w d) + b

/-- The low-rank branch's entry, scaled by 2. -/
def lowRank (x : Fin 4096 → EReal) (A : Fin 16 → Fin 4096 → EReal) (bl : Fin 16 → EReal) : EReal :=
  (∑ r, (∑ d, x d * A r d) * bl r) * two

/-- The output entry of row x at one column. -/
def entry (x w : Fin 4096 → EReal) (b : EReal) (A : Fin 16 → Fin 4096 → EReal) (bl : Fin 16 → EReal)
    (γ β : Fin 4096 → EReal) (Wd : Fin 8 → Fin 4096 → EReal) (wu : Fin 8 → EReal) (α : EReal) : EReal :=
  base x w b + (one + gate x γ β Wd wu α) * lowRank x A bl

end Cert.GatedLowRank

end
-- ==== Proof.LibRowRowDot.lean ====
/-
  A matrix product that contracts the SECOND axis of both operands, read at an entry.

  For the dimension numbers that contract axis 1 of an M × K matrix against axis 1 of an N × K matrix (the product of
  the left operand with the right operand's transpose, no batch axis) the sum over the product's contraction index is
  the sum over `k : Fin K` of `l (a, k) · r (b, k)`. Stated for ANY record with those dimension numbers, whatever the
  three extents; the forms for a `tpu.matmul` into a zero accumulator and for the host's `dot_general` at the ideal
  values follow.
-/
import Idealize.ShloMosaic.PureOps.Ideal.Laws
import Idealize.ShloMosaic.Lib.ValueIdx

noncomputable section

namespace Cert.LibRowRowDot

open Idealize.ShloMosaic Idealize.ShloMosaic.ValueIdx

variable {M K N : Nat}

/-- The sum over the contraction index is the sum over `k : Fin K` of `l (a, k) * r (b, k)`: each operand keeps its
    first axis (the result's row for the left one, the result's column for the right one) and runs its second. -/
theorem dot_sum (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = [])
    (l : (⟨2, ![M, K]⟩ : Shape).Idx → EReal) (r : (⟨2, ![N, K]⟩ : Shape).Idx → EReal) (a : Fin M) (b : Fin N) :
    ∑ k : d.contr.Idx, l (d.lhsIdx (ix2 a b) k) * r (d.rhsIdx (ix2 a b) k) = ∑ k : Fin K, l (ix2 a k) * r (ix2 b k) := by
  obtain ⟨lc, rc, ln, rn, lb, rb, wf⟩ := d
  dsimp only at hlc hrc hln hrn hlb hrb
  subst hlc hrc hln hrn hlb hrb
  generalize hd : (⟨[1], [1], [0], [0], [], [], wf⟩ : DotDims ⟨2, ![M, K]⟩ ⟨2, ![N, K]⟩ ⟨2, ![M, N]⟩) = d
  have hlc : d.lhsContracting = [1] := by rw [← hd]
  have hrc : d.rhsContracting = [1] := by rw [← hd]
  have hr : d.contr.rank = 1 := by rw [← hd]; rfl
  have hs : d.contr.size ⟨0, by omega⟩ = K := by subst hd; rfl
  -- the left operand's kept axis (its first) reads the result's row index
  have l0 : ∀ q : d.contr.Idx, (d.lhsIdx (ix2 a b) q 0).val = a.val := by
    subst hd; intro q
    unfold DotDims.lhsIdx
    rw [dif_neg (show ¬ (0 : Fin 2) ∈ ([] : List (Fin 2)) from List.not_mem_nil),
      dif_pos (show (0 : Fin 2) ∈ ([0] : List (Fin 2)) from List.mem_singleton.mpr rfl)]
    rfl
  -- the right operand's kept axis (its first) reads the result's column index
  have r0 : ∀ q : d.contr.Idx, (d.rhsIdx (ix2 a b) q 0).val = b.val := by
    subst hd; intro q
    unfold DotDims.rhsIdx
    rw [dif_neg (show ¬ (0 : Fin 2) ∈ ([] : List (Fin 2)) from List.not_mem_nil),
      dif_pos (show (0 : Fin 2) ∈ ([0] : List (Fin 2)) from List.mem_singleton.mpr rfl)]
    rfl
  rw [← Equiv.sum_comp (contrEquiv1 d K hr hs).symm]
  refine Finset.sum_congr rfl fun k _ => ?_
  have hk := contrEquiv1_symm_val d K hr hs k
  have el : d.lhsIdx (ix2 a b) ((contrEquiv1 d K hr hs).symm k) = ix2 a k := funext fun ax => Fin.ext (by
    match ax with
    | ⟨0, _⟩ => exact l0 _
    | ⟨1, _⟩ => exact (d.lhsIdx_val_of_single hlc _ _).trans hk)
  have er : d.rhsIdx (ix2 a b) ((contrEquiv1 d K hr hs).symm k) = ix2 b k := funext fun ax => Fin.ext (by
    match ax with
    | ⟨0, _⟩ => exact r0 _
    | ⟨1, _⟩ => exact (d.rhsIdx_val_of_single hrc _ _).trans hk)
  rw [el, er]

/-- A `tpu.matmul` of those dimension numbers into the zero accumulator, at the ideal values, at entry (a, b). -/
theorem matmul_zero_apply {φ₁ φ₂ : FTy} (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = [])
    (prec : Option ContractPrecision)
    (l : FVec Ideal ⟨2, ![M, K]⟩ φ₁) (r : FVec Ideal ⟨2, ![N, K]⟩ φ₂) (a : Fin M) (b : Fin N) :
    FloatOps.matmul d prec l r (constant ⟨2, ![M, N]⟩ .f32 0x00000000#32) (ix2 a b) = ∑ k : Fin K, l (ix2 a k) * r (ix2 b k) :=
  (Ideal.matmul_constant_zero_apply d prec l r (ix2 a b)).trans (dot_sum d hlc hrc hln hrn hlb hrb l r a b)

/-- The host's `dot_general` of those dimension numbers, at the ideal values, at entry (a, b). -/
theorem dotGeneral_apply {φ₁ φ₂ : FTy} (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = [])
    (prec : Option ContractPrecision) (sched : HostSchedule)
    (l : FVec Ideal ⟨2, ![M, K]⟩ φ₁) (r : FVec Ideal ⟨2, ![N, K]⟩ φ₂) (a : Fin M) (b : Fin N) :
    FloatOps.dotGeneral d prec sched l r (ix2 a b) = ∑ k : Fin K, l (ix2 a k) * r (ix2 b k) :=
  (Ideal.dotGeneral_apply d prec sched l r (ix2 a b)).trans (dot_sum d hlc hrc hln hrn hlb hrb l r a b)

end Cert.LibRowRowDot

end
-- ==== Proof.LibColumnForms.lean ====
/-
  A column read at an index: the two layout steps of a row-wise reduction kept as a column.

  A reduction along the last axis of an [a, b] array gives a vector of length a. Kept "as a
  column" it is first cast to the shape [a, 1] and then either broadcast along the second axis to
  [a, c] — every entry of row i is the i-th reduced value — or transposed to the row [1, a] and
  broadcast along the first axis. The cast to a leading unit axis, the transpose of a matrix and the
  broadcast of one row are in the library; here are the cast to a TRAILING
  unit axis and the broadcast of one COLUMN, stated the same way over literal extents.
-/
import Idealize.ShloMosaic.Lib.ValueIdx
import Idealize.ShloMosaic.Lib.ValueLayout
import Idealize.ShloMosaic.Lib.Pipeline.Value

noncomputable section

namespace Idealize.ShloMosaic.ColumnForms

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, c]` reads, at `(i, j)`, the operand's one column at `i`. -/
theorem broadcastTo_a1_ac_apply {a c : ℕ} (v : (⟨2, ![a, 1]⟩ : Shape).Idx → α) (h : (⟨2, ![a, 1]⟩ : Shape).Broadcasts ⟨2, ![a, c]⟩)
    (i : Fin a) (j : Fin c) : broadcastTo ⟨2, ![a, c]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ColumnForms

end
-- ==== Proof.LibRowBroadcast.lean ====
/-
  A one-row table repeated down the rows of a taller table, read at an entry.

  Broadcasting a table of one row and c columns to n rows and c columns copies the row into every row: entry (p, k) of
  the result is entry (0, k) of the one-row table, whatever the row p. (The broadcast reads the operand at coordinate 0
  on every axis where the operand has extent one, and at the result's own coordinate elsewhere; when c itself is one the
  column coordinate k is 0 as well.)
-/
import Idealize.ShloMosaic.Lib.Pipeline.Value
import Idealize.ShloMosaic.Lib.ValueIdx

noncomputable section

namespace Idealize.ShloMosaic.RowBroadcast

open Idealize.ShloMosaic Idealize.ShloMosaic.ValueIdx

/-- [1, c] broadcast to [n, c], at entry (p, k): the row's entry (0, k). -/
theorem broadcastTo_row {α : Type} {n c : Nat} (x : (⟨2, ![1, c]⟩ : Shape).Idx → α)
    (h : (⟨2, ![1, c]⟩ : Shape).Broadcasts ⟨2, ![n, c]⟩) (p : Fin n) (k : Fin c) :
    broadcastTo ⟨2, ![n, c]⟩ x h (ix2 p k) = x (ix2 (0 : Fin 1) k) :=
  broadcastTo_apply x h (ix2 p k) (ix2 (0 : Fin 1) k) (fun a => match a with
    | ⟨0, _⟩ => by
        show (0 : Nat) = if (1 : Nat) = 1 then 0 else _
        rw [if_pos rfl]
    | ⟨1, _⟩ => by
        show k.val = if c = 1 then 0 else k.val
        by_cases hc : c = 1
        · rw [if_pos hc]; have hk := k.isLt; omega
        · rw [if_neg hc])

end Idealize.ShloMosaic.RowBroadcast

end
-- ==== Proof.BodyEntry.lean ====
/-
  What the kernel body stores at one entry of its 128 × 512 output block, as a function of the blocks it loaded.

  The body loads a 128 × 4096 block of input rows, the 512 weight rows / biases / low-rank and gate coefficients of its
  512 output columns, and the tables every column shares (the low-rank factor, the normalisation's scale and shift,
  the down projection, the gate's scalar). Its products contract the last axis of both operands, its two row
  statistics are sums along the row kept as a column, and the format changes are the identity on extended reals. So
  entry (p, q) of what it stores is the entry of input row p of the block at output column q of the block, in the
  sense of the specification `Cert.GatedLowRank.entry`.
-/
import proofs.«140234_j42717744726341_1_alg».proof.Proof.Gen.KernelIdeal.Skeleton
import proofs.«140234_j42717744726341_1_alg».proof.Proof.GatedLowRank
import proofs.«140234_j42717744726341_1_alg».proof.Proof.LibRowRowDot
import proofs.«140234_j42717744726341_1_alg».proof.Proof.LibColumnForms
import proofs.«140234_j42717744726341_1_alg».proof.Proof.LibRowBroadcast
import Idealize.ShloMosaic.PureOps.Ideal.Laws
import Idealize.ShloMosaic.Lib.ValueIdx
import Idealize.ShloMosaic.Lib.Pipeline.Value

noncomputable section

open scoped BigOperators

namespace Cert.KernelIdeal.BodyValue

open Idealize.ShloMosaic Idealize.ShloMosaic.ValueIdx Cert.KernelIdeal Cert.KernelIdeal.Gen Cert.GatedLowRank

/-! ## Small readings at an index -/

section Readings
variable {s : Shape} {φ : FTy}

/-- The reciprocal square root at an index is the extended reals' one of the element. -/
theorem rsqrt_apply (a : FVec Ideal s φ) (i : s.Idx) : rsqrt a i = Ideal.rsqrt (a i) := rfl
/-- The hyperbolic tangent at an index. -/
theorem tanh_apply (a : FVec Ideal s φ) (i : s.Idx) : tanh a i = Ideal.tanh (a i) := rfl
/-- The logistic function at an index. -/
theorem logistic_apply (a : FVec Ideal s φ) (i : s.Idx) : logistic a i = Ideal.logistic (a i) := rfl

end Readings

/-- A vector of length c viewed as one row [1, c] reads, at (u, k), the vector at k. -/
theorem shapeCast_row_apply {α : Type} {c : Nat} (x : (⟨1, ![c]⟩ : Shape).Idx → α)
    (h : (⟨1, ![c]⟩ : Shape).ShapeCasts ⟨2, ![1, c]⟩) (u : Fin 1) (k : Fin c) :
    shapeCast ⟨2, ![1, c]⟩ x h (ix2 u k) = x (ix1 k) :=
  shapeCast_apply x h _ _ (by
    have hu : u.val = 0 := by omega
    rw [Shape.rowMajor_val_two, Shape.rowMajor_val_one]
    show k.val = u.val * c + k.val
    rw [hu, Nat.zero_mul, Nat.zero_add])

/-- The one entry of a 1 × 1 table. -/
theorem extract_one {α : Type} (v : (⟨2, ![1, 1]⟩ : Shape).Idx → α) (h : ∀ a, (![0, 0] : Fin 2 → Nat) a < (⟨2, ![1, 1]⟩ : Shape).size a) :
    extractAt ![0, 0] v h = v (ix2 (0 : Fin 1) (0 : Fin 1)) :=
  congrArg v (funext fun a => Fin.ext (by match a with | ⟨0, _⟩ => rfl | ⟨1, _⟩ => rfl))

/-- A sum along the rows of a 128 × 4096 table, kept as a column: at (p, u) it is the sum of row p. -/
theorem rowSum_column (src : FVec Ideal S128x4096 .f32) (h : S128x4096.Reduces [1] S128) (hφ : FTy.f32 = FTy.f32 ∨ FTy.f32 = FTy.bf16)
    (hacc : (0x00000000#32 : BitVec 32) = 0x00000000#32) (hc : S128.ShapeCasts S128x1) (p : Fin 128) (u : Fin 1) :
    shapeCast S128x1 (multiReduction .add [1] S128 src 0x00000000#32 h hφ hacc) hc (ix2 p u) = ∑ d : Fin 4096, src (ix2 p d) := by
  refine (ColumnForms.shapeCast_a_a1_apply _ hc p u).trans ?_
  refine (Ideal.multiReduction_add_single src 0x00000000#32 h hφ hacc (ix1 p)).trans ?_
  exact Finset.sum_congr rfl fun d _ => congrArg src (funext fun a => Fin.ext (by
    match a with | ⟨0, _⟩ => rfl | ⟨1, _⟩ => rfl))

/-! ## The payloads -/

/-- The loaded input block, cast to its own shape, is itself. -/
theorem pay2_eq (x0 : Vec Ideal S128x4096 .f32) : k0_pay2 (F := Ideal) x0 = x0 := by
  unfold k0_pay2
  exact shapeCast_self x0 _

/-- Narrowed to the product's operand format it is still itself, entry by entry. -/
theorem pay3_apply (x0 : Vec Ideal S128x4096 .f32) (i : S128x4096.Idx) : k0_pay3 (F := Ideal) x0 i = x0 i := by
  unfold k0_pay3
  rw [pay2_eq]
  rfl

/-- The base layer's entry: row p against weight row q, plus the column's bias. -/
theorem pay4_apply (x0 : Vec Ideal S128x4096 .f32) (x1 : Vec Ideal S512x4096 .f32) (x8 : Vec Ideal S512 .f32) (p : Fin 128) (q : Fin 512) :
    k0_pay4 (F := Ideal) x0 x1 x8 (ix2 p q) = base (fun d => x0 (ix2 p d)) (fun d => x1 (ix2 q d)) (x8 (ix1 q)) := by
  have hm := @LibRowRowDot.matmul_zero_apply 128 4096 512 .bf16 .bf16 dot_S128x4096_S512x4096_S128x512_1_1_0_0_n_n rfl rfl rfl rfl rfl rfl none
  unfold k0_pay4
  simp only [addf_apply, matmul, hm, RowBroadcast.broadcastTo_row, shapeCast_row_apply, pay3_apply, truncf_apply]
  rfl

/-- The low-rank branch's entry: row p through the 16 rows of the shared factor, against column q's coefficients, doubled. -/
theorem pay5_apply (x0 : Vec Ideal S128x4096 .f32) (x2 : Vec Ideal S16x4096 .f32) (x3 : Vec Ideal S512x16 .f32) (p : Fin 128) (q : Fin 512) :
    k0_pay5 (F := Ideal) x0 x2 x3 (ix2 p q)
      = lowRank (fun d => x0 (ix2 p d)) (fun r d => x2 (ix2 r d)) (fun r => x3 (ix2 q r)) := by
  have hm1 := @LibRowRowDot.matmul_zero_apply 128 4096 16 .bf16 .bf16 dot_S128x4096_S16x4096_S128x16_1_1_0_0_n_n rfl rfl rfl rfl rfl rfl none
  have hm2 := @LibRowRowDot.matmul_zero_apply 128 16 512 .bf16 .bf16 dot_S128x16_S512x16_S128x512_1_1_0_0_n_n rfl rfl rfl rfl rfl rfl none
  unfold k0_pay5
  simp only [mulf_apply, matmul, hm1, hm2, pay3_apply, truncf_apply, broadcast_apply]
  rfl

/-- The centred row times the reciprocal root of its variance plus ε: both statistics are row p's own. -/
theorem pay6_apply (x0 : Vec Ideal S128x4096 .f32) (p : Fin 128) (d : Fin 4096) :
    k0_pay6 (F := Ideal) x0 (ix2 p d)
      = (x0 (ix2 p d) - mean (fun d => x0 (ix2 p d))) * Ideal.rsqrt (variance (fun d => x0 (ix2 p d)) + eps) := by
  unfold k0_pay6
  simp only [pay2_eq, mulf_apply, subf_apply, addf_apply, divf_apply, rsqrt_apply, broadcast_apply,
    ColumnForms.broadcastTo_a1_ac_apply]
  -- the row's sum (the mean's), then the sum of the squared deviations (the variance's)
  rw [rowSum_column, rowSum_column]
  simp only [mulf_apply, subf_apply, divf_apply, broadcast_apply, ColumnForms.broadcastTo_a1_ac_apply]
  -- the mean again, inside each squared deviation
  rw [rowSum_column]
  rfl

/-- The scale vector viewed as one row. -/
theorem pay7_apply (x4 : Vec Ideal S4096 .f32) (u : Fin 1) (d : Fin 4096) : k0_pay7 (F := Ideal) x4 (ix2 u d) = x4 (ix1 d) := by
  unfold k0_pay7
  exact shapeCast_row_apply x4 _ u d

/-- The stored value from its four computed parts and the four tables loaded late: the normalised row (v36 scaled by
    the row v38, shifted by v41) is projected by v46, activated, combined with column q's coefficients v52, and the gate
    α · tanh of that, plus one, multiplies the low-rank entry v18 before the base entry v9 is added. -/
theorem pay1_apply (v9 v18 : FVec Ideal S128x512 .f32) (v36 : FVec Ideal S128x4096 .f32) (v38 : FVec Ideal S1x4096 .f32)
    (v41 : Vec Ideal S4096 .f32) (v46 : Vec Ideal S8x4096 .f32) (v52 : Vec Ideal S512x8 .f32) (v55 : Vec Ideal S1x1 .f32)
    (p : Fin 128) (q : Fin 512) :
    k0_pay1 (F := Ideal) v9 v18 v36 v38 v41 v46 v52 v55 (ix2 p q)
      = v9 (ix2 p q) + (one + v55 (ix2 (0 : Fin 1) (0 : Fin 1)) * Ideal.tanh (∑ k : Fin 8,
          silu (∑ d : Fin 4096, (v36 (ix2 p d) * v38 (ix2 (0 : Fin 1) d) + v41 (ix1 d)) * v46 (ix2 k d)) * v52 (ix2 q k)))
        * v18 (ix2 p q) := by
  have hm1 := @LibRowRowDot.matmul_zero_apply 128 4096 8 .bf16 .bf16 dot_S128x4096_S8x4096_S128x8_1_1_0_0_n_n rfl rfl rfl rfl rfl rfl none
  have hm2 := @LibRowRowDot.matmul_zero_apply 128 8 512 .bf16 .bf16 dot_S128x8_S512x8_S128x512_1_1_0_0_n_n rfl rfl rfl rfl rfl rfl none
  unfold k0_pay1
  simp only [addf_apply, mulf_apply, tanh_apply, logistic_apply, broadcast_apply, truncf_apply, matmul, hm1, hm2,
    RowBroadcast.broadcastTo_row, shapeCast_row_apply, extract_one]
  rfl

/-! ## The stored block, entry by entry -/

/-- Entry (p, q) of what the body stores: the specification's entry of row p of the input block at the block's column q. -/
theorem body_entry (x0 : Vec Ideal S128x4096 .f32) (x1 : Vec Ideal S512x4096 .f32) (x2 : Vec Ideal S16x4096 .f32)
    (x3 : Vec Ideal S512x16 .f32) (x4 x5 : Vec Ideal S4096 .f32) (x6 : Vec Ideal S8x4096 .f32) (x7 : Vec Ideal S512x8 .f32)
    (x8 : Vec Ideal S512 .f32) (x9 : Vec Ideal S1x1 .f32) (p : Fin 128) (q : Fin 512) :
    k0_pay1 (F := Ideal) (k0_pay4 x0 x1 x8) (k0_pay5 x0 x2 x3) (k0_pay6 x0) (k0_pay7 x4) x5 x6 x7 x9 (ix2 p q)
      = entry (fun d => x0 (ix2 p d)) (fun d => x1 (ix2 q d)) (x8 (ix1 q)) (fun r d => x2 (ix2 r d)) (fun r => x3 (ix2 q r))
          (fun d => x4 (ix1 d)) (fun d => x5 (ix1 d)) (fun k d => x6 (ix2 k d)) (fun k => x7 (ix2 q k))
          (x9 (ix2 (0 : Fin 1) (0 : Fin 1))) := by
  rw [pay1_apply, pay4_apply, pay5_apply]
  simp only [pay6_apply, pay7_apply]
  rfl

end Cert.KernelIdeal.BodyValue

end
-- ==== Proof.BlocksToArray.lean ====
/-
  From blocks to the array, and from the array to the result.

  The pallas_call runs the body at the 64 × 8 points of its grid. At point (i, j) the input window holds rows
  128·i … 128·i + 127 of the flat [8192, 4096] input, the column-tiled windows (weights, bias, low-rank and gate
  coefficients) hold rows 512·j … 512·j + 511 of their tables, the shared tables are whole, and the output window is
  the block at rows 128·i …, columns 512·j … of the [8192, 4096] output. So entry (p, q) of what the body stores is the
  specification's entry of flat input row 128·i + p at output column 512·j + q: each point writes back a block of ONE
  function of the arrays (`flat`), the 512 blocks cover the output, and the output array ends holding that function.
  The flat input is the [4, 2048, 4096] input reshaped (row 2048·b + s is row (b, s)), the gate's scalar is reshaped
  to a 1 × 1 table, and the result is the output reshaped back: at (b, s, o) it is the entry of input row (b, s) at
  column o.
-/
import proofs.«140234_j42717744726341_1_alg».proof.Proof.Gen.KernelIdeal.Frame
import proofs.«140234_j42717744726341_1_alg».proof.Proof.BodyEntry
import Idealize.ShloMosaic.Lib.Pipeline.Value
import Idealize.ShloMosaic.Lib.StableHlo.Run

set_option maxRecDepth 16384

noncomputable section

open scoped BigOperators

namespace Cert.KernelIdeal.ArrayValue

open Idealize.ShloMosaic Idealize.ShloMosaic.TcCoe Idealize.ShloMosaic.ValueIdx Idealize.SL.Sem
open Cert.KernelIdeal Cert.KernelIdeal.Gen Cert.GatedLowRank

variable (m : (ℓ : Loc nD τ sig) → Buf (Elt Ideal) ℓ) (ρ : Dev nD → PrngReg)

/-! ## The output array as one function of the arrays the region finds -/

/-- The [8192, 4096] output as a function of the flat input and the tables: entry (r, o) is the specification's entry
    of flat row r at column o. -/
def flat (xf : S8192x4096.Idx → EReal) (W : S4096x4096.Idx → EReal) (A : S16x4096.Idx → EReal) (Bl : S4096x16.Idx → EReal)
    (γ β : S4096.Idx → EReal) (Wd : S8x4096.Idx → EReal) (Wu : S4096x8.Idx → EReal) (bb : S4096.Idx → EReal)
    (α : S1x1.Idx → EReal) : S8192x4096.Idx → EReal := fun i =>
  entry (fun d => xf (ix2 (i 0) d)) (fun d => W (ix2 (i 1) d)) (bb (ix1 (i 1))) (fun r d => A (ix2 r d))
    (fun r => Bl (ix2 (i 1) r)) (fun d => γ (ix1 d)) (fun d => β (ix1 d)) (fun k d => Wd (ix2 k d))
    (fun k => Wu (ix2 (i 1) k)) (α (ix2 (0 : Fin 1) (0 : Fin 1)))

/-- The specification's entry depends on its ten arguments only. -/
theorem entry_congr {x x' w w' : Fin 4096 → EReal} {b b' : EReal} {A A' : Fin 16 → Fin 4096 → EReal} {bl bl' : Fin 16 → EReal}
    {γ γ' β β' : Fin 4096 → EReal} {Wd Wd' : Fin 8 → Fin 4096 → EReal} {wu wu' : Fin 8 → EReal} {α α' : EReal}
    (hx : x = x') (hw : w = w') (hb : b = b') (hA : A = A') (hbl : bl = bl') (hγ : γ = γ') (hβ : β = β') (hWd : Wd = Wd')
    (hwu : wu = wu') (hα : α = α') : entry x w b A bl γ β Wd wu α = entry x' w' b' A' bl' γ' β' Wd' wu' α' := by
  subst hx hw hb hA hbl hγ hβ hWd hwu hα; rfl

theorem zero2 : (![0, 0] : Fin 2 → Nat) = fun _ => 0 := funext fun a => by fin_cases a <;> rfl
theorem zero1 : (![0] : Fin 1 → Nat) = fun _ => 0 := funext fun a => by fin_cases a; rfl

/-- The printed index maps over the grid: the output block of point t is (t / 8, t % 8); the input window follows its
    row index, the column-tiled windows its column index, the shared tables stay at block 0. -/
theorem idx_facts : ∀ t : Fin cfg0.N,
    win0_0.index t (0 : Fin 2) = win0_10.index t (0 : Fin 2) ∧ win0_0.index t (1 : Fin 2) = 0
    ∧ win0_1.index t (0 : Fin 2) = win0_10.index t (1 : Fin 2) ∧ win0_1.index t (1 : Fin 2) = 0
    ∧ win0_2.index t (0 : Fin 2) = 0 ∧ win0_2.index t (1 : Fin 2) = 0
    ∧ win0_3.index t (0 : Fin 2) = win0_10.index t (1 : Fin 2) ∧ win0_3.index t (1 : Fin 2) = 0
    ∧ win0_4.index t (0 : Fin 1) = 0
    ∧ win0_5.index t (0 : Fin 1) = 0
    ∧ win0_6.index t (0 : Fin 2) = 0 ∧ win0_6.index t (1 : Fin 2) = 0
    ∧ win0_7.index t (0 : Fin 2) = win0_10.index t (1 : Fin 2) ∧ win0_7.index t (1 : Fin 2) = 0
    ∧ win0_8.index t (0 : Fin 1) = win0_10.index t (1 : Fin 2)
    ∧ win0_9.index t (0 : Fin 2) = 0 ∧ win0_9.index t (1 : Fin 2) = 0
    ∧ win0_10.index t (0 : Fin 2) = t.val / 8 ∧ win0_10.index t (1 : Fin 2) = t.val % 8 :=
  (by decide +kernel : ∀ t : Fin grid0.N, _)

/-! ## What a point writes back -/

/-- The arrays the region finds, in the order `flat` takes them. -/
abbrev found (c : Dev nD) : S8192x4096.Idx → EReal :=
  flat (V m c main_v0) (V m c main_arg1) (V m c main_arg3) (V m c main_arg4) (V m c main_arg5) (V m c main_arg6)
    (V m c main_arg7) (V m c main_arg8) (V m c main_arg2) (V m c main_v1)

/-- WHAT POINT t WRITES BACK is block t of `flat` of the arrays as the region finds them. -/
theorem flushed_eq (c : Dev nD) (t : Fin cfg0.N) :
    (dats m 0 c).flushed 10 t = ((cfg0.win 10).blk t).view.read (Elt Ideal) (found m c) := by
  show (cfg0.win 10).cut (grid0.coords t) ((dats m 0 c).after 10 t) = _
  rw [after0_10]
  unfold out0_10
  rw [View.canon_unit_zero zero2]
  simp only [View.ld_unit_zero (S := S128x4096) zero2, View.ld_unit_zero (S := S512x4096) zero2,
    View.ld_unit_zero (S := S512) zero1, View.ld_unit_zero (S := S16x4096) zero2, View.ld_unit_zero (S := S512x16) zero2,
    View.ld_unit_zero (S := S4096) zero1, View.ld_unit_zero (S := S8x4096) zero2, View.ld_unit_zero (S := S512x8) zero2,
    View.ld_unit_zero (S := S1x1) zero2]
  obtain ⟨e00, e01, e10, e11, e20, e21, e30, e31, e40, e50, e60, e61, e70, e71, e80, e90, e91, -, -⟩ := idx_facts t
  funext y
  obtain ⟨p, q, rfl⟩ : ∃ (p : Fin 128) (q : Fin 512), y = ix2 p q := ⟨y 0, y 1, eq_ix2 y⟩
  refine (BodyValue.body_entry (iblk m c 0 t) (iblk m c 1 t) (iblk m c 2 t) (iblk m c 3 t) (iblk m c 4 t) (iblk m c 5 t)
    (iblk m c 6 t) (iblk m c 7 t) (iblk m c 8 t) (iblk m c 9 t) p q).trans ?_
  show _ = flat (V m c main_v0) (V m c main_arg1) (V m c main_arg3) (V m c main_arg4) (V m c main_arg5) (V m c main_arg6)
    (V m c main_arg7) (V m c main_arg8) (V m c main_arg2) (V m c main_v1) (((cfg0.win 10).blk t).view.emb (ix2 p q))
  unfold flat
  have hp : ((((cfg0.win 10).blk t).view.emb (ix2 p q)) 0).val = win0_10.index t (0 : Fin 2) * 128 + 1 * p.val := rfl
  have hq : ((((cfg0.win 10).blk t).view.emb (ix2 p q)) 1).val = win0_10.index t (1 : Fin 2) * 512 + 1 * q.val := rfl
  refine entry_congr ?_ ?_ ?_ ?_ ?_ ?_ ?_ ?_ ?_ ?_
  · funext d
    show V m c main_v0 (((cfg0.win 0).blk t).view.emb (ix2 p d)) = _
    refine congrArg _ (funext fun a => Fin.ext ?_)
    match a with
    | ⟨0, _⟩ => show win0_0.index t (0 : Fin 2) * 128 + 1 * p.val = _; rw [hp]; omega
    | ⟨1, _⟩ => show win0_0.index t (1 : Fin 2) * 4096 + 1 * d.val = d.val; omega
  · funext d
    show V m c main_arg1 (((cfg0.win 1).blk t).view.emb (ix2 q d)) = _
    refine congrArg _ (funext fun a => Fin.ext ?_)
    match a with
    | ⟨0, _⟩ => show win0_1.index t (0 : Fin 2) * 512 + 1 * q.val = _; rw [hq]; omega
    | ⟨1, _⟩ => show win0_1.index t (1 : Fin 2) * 4096 + 1 * d.val = d.val; omega
  · show V m c main_arg2 (((cfg0.win 8).blk t).view.emb (ix1 q)) = _
    refine congrArg _ (funext fun a => Fin.ext ?_)
    match a with
    | ⟨0, _⟩ => show win0_8.index t (0 : Fin 1) * 512 + 1 * q.val = _; rw [hq]; omega
  · funext r d
    show V m c main_arg3 (((cfg0.win 2).blk t).view.emb (ix2 r d)) = _
    refine congrArg _ (funext fun a => Fin.ext ?_)
    match a with
    | ⟨0, _⟩ => show win0_2.index t (0 : Fin 2) * 16 + 1 * r.val = r.val; omega
    | ⟨1, _⟩ => show win0_2.index t (1 : Fin 2) * 4096 + 1 * d.val = d.val; omega
  · funext r
    show V m c main_arg4 (((cfg0.win 3).blk t).view.emb (ix2 q r)) = _
    refine congrArg _ (funext fun a => Fin.ext ?_)
    match a with
    | ⟨0, _⟩ => show win0_3.index t (0 : Fin 2) * 512 + 1 * q.val = _; rw [hq]; omega
    | ⟨1, _⟩ => show win0_3.index t (1 : Fin 2) * 16 + 1 * r.val = r.val; omega
  · funext d
    show V m c main_arg5 (((cfg0.win 4).blk t).view.emb (ix1 d)) = _
    refine congrArg _ (funext fun a => Fin.ext ?_)
    match a with
    | ⟨0, _⟩ => show win0_4.index t (0 : Fin 1) * 4096 + 1 * d.val = d.val; omega
  · funext d
    show V m c main_arg6 (((cfg0.win 5).blk t).view.emb (ix1 d)) = _
    refine congrArg _ (funext fun a => Fin.ext ?_)
    match a with
    | ⟨0, _⟩ => show win0_5.index t (0 : Fin 1) * 4096 + 1 * d.val = d.val; omega
  · funext k d
    show V m c main_arg7 (((cfg0.win 6).blk t).view.emb (ix2 k d)) = _
    refine congrArg _ (funext fun a => Fin.ext ?_)
    match a with
    | ⟨0, _⟩ => show win0_6.index t (0 : Fin 2) * 8 + 1 * k.val = k.val; omega
    | ⟨1, _⟩ => show win0_6.index t (1 : Fin 2) * 4096 + 1 * d.val = d.val; omega
  · funext k
    show V m c main_arg8 (((cfg0.win 7).blk t).view.emb (ix2 q k)) = _
    refine congrArg _ (funext fun a => Fin.ext ?_)
    match a with
    | ⟨0, _⟩ => show win0_7.index t (0 : Fin 2) * 512 + 1 * q.val = _; rw [hq]; omega
    | ⟨1, _⟩ => show win0_7.index t (1 : Fin 2) * 8 + 1 * k.val = k.val; omega
  · show V m c main_v1 (((cfg0.win 9).blk t).view.emb (ix2 (0 : Fin 1) (0 : Fin 1))) = _
    refine congrArg _ (funext fun a => Fin.ext ?_)
    match a with
    | ⟨0, _⟩ => show win0_9.index t (0 : Fin 2) * 1 + 1 * 0 = 0; omega
    | ⟨1, _⟩ => show win0_9.index t (1 : Fin 2) * 1 + 1 * 0 = 0; omega

/-! ## The cover, and the array after the run -/

/-- An index of the output array is in point t's block iff each coordinate is in the block's range on its axis. -/
theorem mem_blk (t : Fin cfg0.N) (i : S8192x4096.Idx) :
    i ∈ ((cfg0.win 10).blk t).view.set ↔ ∀ a : Fin 2, win0_10.index t a * S128x512.size a ≤ (i a).val
      ∧ (i a).val < win0_10.index t a * S128x512.size a + S128x512.size a := by
  show i ∈ ((View.whole main_v2).slice (win0_10.rect t)).set ↔ _
  rw [View.set_slice_whole, Rect.mem_set_unit]
  exact Iff.rfl

/-- Every index of the output is in some point's block: the point of row block r / 128 and column block o / 512. -/
theorem cover (i : S8192x4096.Idx) :
    ∃ t : Fin cfg0.N, (cfg0.win 10).flush t = true ∧ i ∈ ((cfg0.win 10).blk t).view.set := by
  have hi0 : (i 0).val < 8192 := (i 0).isLt
  have hi1 : (i 1).val < 4096 := (i 1).isLt
  have hN : cfg0.N = 512 := N_0
  have ht : (i 0).val / 128 * 8 + (i 1).val / 512 < cfg0.N := by rw [hN]; omega
  obtain ⟨-, -, -, -, -, -, -, -, -, -, -, -, -, -, -, -, -, f0, f1⟩ := idx_facts ⟨_, ht⟩
  have g0 : win0_10.index ⟨_, ht⟩ (0 : Fin 2) = (i 0).val / 128 := by rw [f0]; show ((i 0).val / 128 * 8 + (i 1).val / 512) / 8 = _; omega
  have g1 : win0_10.index ⟨_, ht⟩ (1 : Fin 2) = (i 1).val / 512 := by rw [f1]; show ((i 0).val / 128 * 8 + (i 1).val / 512) % 8 = _; omega
  refine ⟨⟨_, ht⟩, flush0_10 _, ?_⟩
  rw [mem_blk]
  intro a
  match a with
  | ⟨0, _⟩ =>
    show win0_10.index ⟨_, ht⟩ (0 : Fin 2) * 128 ≤ (i 0).val ∧ (i 0).val < win0_10.index ⟨_, ht⟩ (0 : Fin 2) * 128 + 128
    rw [g0]; omega
  | ⟨1, _⟩ =>
    show win0_10.index ⟨_, ht⟩ (1 : Fin 2) * 512 ≤ (i 1).val ∧ (i 1).val < win0_10.index ⟨_, ht⟩ (1 : Fin 2) * 512 + 512
    rw [g1]; omega

/-- THE OUTPUT ARRAY after the run: `flat` of the arrays the region finds. -/
theorem final (c : Dev nD) : (dats m 0 c).arrAt 10 cfg0.N = found m c :=
  (dats m 0 c).arrAt_eq_of_cover 10 (found m c) (fun t _ => flushed_eq m c t) cover

end Cert.KernelIdeal.ArrayValue

end
-- ==== Proof.KernelResult.lean ====
/-
  The kernel program's result.

  Around the pallas_call the program reshapes: the [4, 2048, 4096] input to the flat [8192, 4096] array the call reads
  (flat row 2048·b + s is input row (b, s)), the gate's scalar to a 1 × 1 table, and the call's [8192, 4096] output back
  to [4, 2048, 4096]. Reading the three reshapes at an index, the result at (b, s, o) is the specification's entry of
  input row (b, s) at column o, of the argument arrays themselves.
-/
import proofs.«140234_j42717744726341_1_alg».proof.Proof.BlocksToArray

set_option maxRecDepth 16384

noncomputable section

open scoped BigOperators

namespace Cert.KernelIdeal.ResultValue

open Idealize.ShloMosaic Idealize.ShloMosaic.TcCoe Idealize.ShloMosaic.ValueIdx Idealize.SL.Sem
open Cert.KernelIdeal Cert.KernelIdeal.Gen Cert.KernelIdeal.ArrayValue Cert.GatedLowRank

variable (m : (ℓ : Loc nD τ sig) → Buf (Elt Ideal) ℓ) (ρ : Dev nD → PrngReg)

/-- The flat input the region finds is the input, reshaped. -/
theorem found_input (c : Dev nD) :
    (V m c main_v0 : S8192x4096.Idx → EReal)
      = shapeCast S8192x4096 (m ((c : Thread nD τ).loc main_arg0)) Facts₀.shapeCasts_S4x2048x4096_S8192x4096 := by
  show StableHlo.after hostOps0 (fun b => m (c, b)) (Proc.devRef .tc main_v0) = _
  after_results
  rfl

/-- The 1 × 1 table the region finds is the gate's scalar, reshaped. -/
theorem found_scalar (c : Dev nD) :
    (V m c main_v1 : S1x1.Idx → EReal)
      = shapeCast S1x1 (m ((c : Thread nD τ).loc main_arg9)) Facts₀.shapeCasts_S_S1x1 := by
  show StableHlo.after hostOps0 (fun b => m (c, b)) (Proc.devRef .tc main_v1) = _
  after_results
  rfl

/-- The program's result as a function of the argument arrays. -/
def result (c : Dev nD) : S4x2048x4096.Idx → EReal := fun i =>
  entry (fun d => m ((c : Thread nD τ).loc main_arg0) (ix3 (i 0) (i 1) d))
    (fun d => m ((c : Thread nD τ).loc main_arg1) (ix2 (i 2) d))
    (m ((c : Thread nD τ).loc main_arg2) (ix1 (i 2)))
    (fun r d => m ((c : Thread nD τ).loc main_arg3) (ix2 r d))
    (fun r => m ((c : Thread nD τ).loc main_arg4) (ix2 (i 2) r))
    (fun d => m ((c : Thread nD τ).loc main_arg5) (ix1 d))
    (fun d => m ((c : Thread nD τ).loc main_arg6) (ix1 d))
    (fun k d => m ((c : Thread nD τ).loc main_arg7) (ix2 k d))
    (fun k => m ((c : Thread nD τ).loc main_arg8) (ix2 (i 2) k))
    (m ((c : Thread nD τ).loc main_arg9) ix0)

/-- The flat row of input row (b, s). -/
abbrev flatRow (b : Fin 4) (s : Fin 2048) : Fin 8192 := ⟨b.val * 2048 + s.val, by omega⟩

/-- The reshaped input at flat row 2048·b + s is the input at row (b, s). -/
theorem reshape_input_apply (x : S4x2048x4096.Idx → EReal) (h : S4x2048x4096.ShapeCasts S8192x4096)
    (b : Fin 4) (s : Fin 2048) (d : Fin 4096) : shapeCast S8192x4096 x h (ix2 (flatRow b s) d) = x (ix3 b s d) :=
  shapeCast_apply x h _ _ (by
    rw [Shape.rowMajor_val_three, Shape.rowMajor_val_two]
    show (b.val * 2048 + s.val) * 4096 + d.val = (b.val * 2048 + s.val) * 4096 + d.val
    rfl)

/-- The reshaped scalar's one entry is the scalar. -/
theorem reshape_scalar_apply (a : S_.Idx → EReal) (h : S_.ShapeCasts S1x1) (j : S1x1.Idx) : shapeCast S1x1 a h j = a ix0 := by
  unfold shapeCast
  exact congrArg a (eq_ix0 _)

/-- The output reshaped back: at (b, s, o) it is the flat output at (2048·b + s, o). -/
theorem reshape_output_apply (y : S8192x4096.Idx → EReal) (h : S8192x4096.ShapeCasts S4x2048x4096)
    (b : Fin 4) (s : Fin 2048) (o : Fin 4096) : shapeCast S4x2048x4096 y h (ix3 b s o) = y (ix2 (flatRow b s) o) :=
  shapeCast_apply y h _ _ (by
    rw [Shape.rowMajor_val_three, Shape.rowMajor_val_two]
    show (b.val * 2048 + s.val) * 4096 + o.val = (b.val * 2048 + s.val) * 4096 + o.val
    rfl)

/-- The result buffer after the lines that follow the region: the output array reshaped, which is `result`. -/
theorem tail_eq (c : Dev nD) :
    Pipeline.afterTail₀ cfgs (dats m) 0 (V0 m) [hostOps1] c main_v3 = result m c := by
  unfold Pipeline.afterTail₀
  show StableHlo.after hostOps1 _ (Proc.devRef .tc main_v3) = _
  after_results
  funext i
  obtain ⟨b, s, o, rfl⟩ : ∃ (b : Fin 4) (s : Fin 2048) (o : Fin 4096), i = ix3 b s o := ⟨i 0, i 1, i 2, eq_ix3 i⟩
  -- the call's output array, after the run, is `flat` of the arrays the region finds
  have hw : Pipeline.withArrays (cfgs 0).spec c (V0 m c) (fun w => (dats m 0 c).arrAt w (cfgs 0).N)
      (Proc.devRef .tc main_v2) = found m c :=
    (Pipeline.withArrays_arr spec0 launch0.win.arr_inj c _ _ 10).trans (final m c)
  refine (reshape_output_apply _ _ b s o).trans ?_
  refine (congrFun hw _).trans ?_
  show flat _ _ _ _ _ _ _ _ _ _ _ = _
  unfold flat result
  refine entry_congr ?_ ?_ ?_ ?_ ?_ ?_ ?_ ?_ ?_ ?_
  · funext d
    exact (congrFun (found_input m c) _).trans (reshape_input_apply _ _ b s d)
  · funext d
    exact congrFun (V_main_arg1 m c) _
  · exact congrFun (V_main_arg2 m c) _
  · funext r d
    exact congrFun (V_main_arg3 m c) _
  · funext r
    exact congrFun (V_main_arg4 m c) _
  · funext d
    exact congrFun (V_main_arg5 m c) _
  · funext d
    exact congrFun (V_main_arg6 m c) _
  · funext k d
    exact congrFun (V_main_arg7 m c) _
  · funext k
    exact congrFun (V_main_arg8 m c) _
  · exact (congrFun (found_scalar m c) _).trans (reshape_scalar_apply _ _ _)

/-- The frame run re-posted: the result buffer ends at `result` of the arguments, and the arguments end unchanged
    (the input arrays of the call through their windows, the two reshaped ones through the lines around it). -/
theorem run : θ_run defs (onTc (τ := τ) (main (F := Ideal))) ⟨m, fun _ => 0, ρ⟩ fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
    ⟨((h c).2 main_v3 (Pipeline.mem_restRefs_of main_v3 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 8).trans (((dats m 0 c).arrAt_in 8 rfl _).trans ((A_eq m c 8).trans (V_main_arg2 m c))),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c))),
      ((h c).1 4).trans (((dats m 0 c).arrAt_in 4 rfl _).trans ((A_eq m c 4).trans (V_main_arg5 m c))),
      ((h c).1 5).trans (((dats m 0 c).arrAt_in 5 rfl _).trans ((A_eq m c 5).trans (V_main_arg6 m c))),
      ((h c).1 6).trans (((dats m 0 c).arrAt_in 6 rfl _).trans ((A_eq m c 6).trans (V_main_arg7 m c))),
      ((h c).1 7).trans (((dats m 0 c).arrAt_in 7 rfl _).trans ((A_eq m c 7).trans (V_main_arg8 m c))),
      ((h c).2 main_arg9 (Pipeline.mem_restRefs_of main_arg9 (by decide) (by decide))).trans (W_main_arg9 m (dats m) c)⟩)
    (run_main m ρ)

end Cert.KernelIdeal.ResultValue

end
-- ==== Proof.RefEntry.lean ====
/-
  The reference's result at one index.

  The reference computes, for the whole [4, 2048, 4096] input at once, the base linear layer, the low-rank branch and
  the gate, each product contracting the last axis of its left operand with the last axis of a weight table, each
  row statistic a sum over the last axis divided by 4096. Read at the index (b, s, o), every stage depends on the
  input only through its row (b, s) and on the weight tables only through their row o (or through all of a shared
  table): the result there is the specification's entry `Cert.GatedLowRank.entry` of row (b, s) at column o. The
  reference spells z · logistic z as z · (1 / (1 + exp (−z))), which is the logistic function's definition on the
  extended reals once the float word of 1 is read as the number 1.
-/
import proofs.«140234_j42717744726341_1_alg».proof.Proof.Gen.ReferenceIdeal.Read
import proofs.«140234_j42717744726341_1_alg».proof.Proof.GatedLowRank
import Idealize.ShloMosaic.Lib.IdealHost
import Idealize.ShloMosaic.Lib.ValueIdx
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Read Cert.GatedLowRank

/-- A float array of a literal shape at the ideal values. -/
abbrev Arr (S : Shape) : Type := (⟨S, .f32⟩ : BufTy).Contents (Elt Ideal)

variable (x0 : Arr S4x2048x4096) (x1 : Arr S4096x4096) (x2 : Arr S4096) (x3 : Arr S16x4096) (x4 : Arr S4096x16)
  (x5 x6 : Arr S4096) (x7 : Arr S8x4096) (x8 : Arr S4096x8) (x9 : Arr S_)

/-- The mean stage at (b, s, ·): the mean of row (b, s). -/
theorem mean_at (b : Fin 4) (s : Fin 2048) (u : Fin 1) :
    val_main_v11 (F := Ideal) x0 (ix3 b s u) = mean (fun d => x0 (ix3 b s d)) := by
  have e : ∀ k, idx_main_v8 (idx_main_v9 (ix3 b s u)) k = ix3 b s k := fun k => funext fun a => Fin.ext (by
    match a with | ⟨0, _⟩ => rfl | ⟨1, _⟩ => rfl | ⟨2, _⟩ => rfl)
  simp only [val_main_v11_apply, val_main_v9_apply, val_main_v8_apply, val_main_v10_apply, val_main_cst_1_apply,
    val_main_cst_0_apply, e, Ideal.ofBits_def, Ideal.ofBits_zero_f32, zero_add]
  rfl

/-- The centred input (the copy the variance squares) at (b, s, d). -/
theorem centred_at (b : Fin 4) (s : Fin 2048) (d : Fin 4096) :
    val_main_v13 (F := Ideal) x0 (ix3 b s d) = x0 (ix3 b s d) - mean (fun d => x0 (ix3 b s d)) := by
  have e : idx_main_v12 (ix3 b s d) = ix3 b s (0 : Fin 1) := funext fun a => Fin.ext (by
    match a with | ⟨0, _⟩ => rfl | ⟨1, _⟩ => rfl | ⟨2, _⟩ => rfl)
  simp only [val_main_v13_apply, val_main_v12_apply, e, mean_at]
  rfl

/-- The variance stage at (b, s, ·): the variance of row (b, s). -/
theorem variance_at (b : Fin 4) (s : Fin 2048) (u : Fin 1) :
    val_main_v18 (F := Ideal) x0 (ix3 b s u) = variance (fun d => x0 (ix3 b s d)) := by
  have e : ∀ k, idx_main_v15 (idx_main_v16 (ix3 b s u)) k = ix3 b s k := fun k => funext fun a => Fin.ext (by
    match a with | ⟨0, _⟩ => rfl | ⟨1, _⟩ => rfl | ⟨2, _⟩ => rfl)
  simp only [val_main_v18_apply, val_main_v16_apply, val_main_v15_apply, val_main_v17_apply, val_main_cst_3_apply,
    val_main_cst_2_apply, val_main_v14_apply, e, centred_at, Ideal.ofBits_def, Ideal.ofBits_zero_f32, zero_add]
  rfl

/-- The normalised input at (b, s, d): row (b, s) normalised, scaled and shifted, at d. -/
theorem normed_at (b : Fin 4) (s : Fin 2048) (d : Fin 4096) :
    val_main_v31 (F := Ideal) x0 x5 x6 (ix3 b s d)
      = normed (fun d => x0 (ix3 b s d)) (fun d => x5 (ix1 d)) (fun d => x6 (ix1 d)) d := by
  have e19 : idx_main_v19 (ix3 b s d) = ix3 b s (0 : Fin 1) := funext fun a => Fin.ext (by
    match a with | ⟨0, _⟩ => rfl | ⟨1, _⟩ => rfl | ⟨2, _⟩ => rfl)
  have e24 : idx_main_v24 (ix3 b s d) = ix3 b s (0 : Fin 1) := funext fun a => Fin.ext (by
    match a with | ⟨0, _⟩ => rfl | ⟨1, _⟩ => rfl | ⟨2, _⟩ => rfl)
  have e27 : idx_main_v26 (idx_main_v27 (ix3 b s d)) = ix1 d := funext fun a => Fin.ext (by
    match a with | ⟨0, _⟩ => rfl)
  have e30 : idx_main_v29 (idx_main_v30 (ix3 b s d)) = ix1 d := funext fun a => Fin.ext (by
    match a with | ⟨0, _⟩ => rfl)
  simp only [val_main_v31_apply, val_main_v28_apply, val_main_v25_apply, val_main_v20_apply, val_main_v19_apply,
    val_main_v24_apply, val_main_v23_apply, val_main_v22_apply, val_main_v21_apply, val_main_cst_4_apply,
    val_main_v27_apply, val_main_v26_apply, val_main_v30_apply, val_main_v29_apply, e19, e24, e27, e30, mean_at,
    variance_at]
  rfl

/-- The down projection at (b, s, k): the normalised row (b, s) against row k of the projection. -/
theorem down_at (b : Fin 4) (s : Fin 2048) (k : Fin 8) :
    val_main_v32 (F := Ideal) x0 x5 x6 x7 (ix3 b s k)
      = ∑ d : Fin 4096, normed (fun d => x0 (ix3 b s d)) (fun d => x5 (ix1 d)) (fun d => x6 (ix1 d)) d * x7 (ix2 k d) := by
  have el : ∀ d, lidx_main_v32 (ix3 b s k) d = ix3 b s d := fun d => funext fun a => Fin.ext (by
    match a with | ⟨0, _⟩ => rfl | ⟨1, _⟩ => rfl | ⟨2, _⟩ => rfl)
  have er : ∀ d, ridx_main_v32 (ix3 b s k) d = ix2 k d := fun d => funext fun a => Fin.ext (by
    match a with | ⟨0, _⟩ => rfl | ⟨1, _⟩ => rfl)
  simp only [val_main_v32_apply, el, er, normed_at]

/-- The activated projection at (b, s, k): the reference's z · (1 / (1 + exp (−z))) is z · logistic z. -/
theorem activated_at (b : Fin 4) (s : Fin 2048) (k : Fin 8) :
    val_main_v33 (F := Ideal) x0 x5 x6 x7 (ix3 b s k)
      = silu (∑ d : Fin 4096, normed (fun d => x0 (ix3 b s d)) (fun d => x5 (ix1 d)) (fun d => x6 (ix1 d)) d * x7 (ix2 k d)) := by
  simp only [val_main_v33_apply, val_main_call0_v5_apply, val_main_call0_v4_apply, val_main_call0_cst_0_apply,
    val_main_call0_v3_apply, val_main_call0_v2_apply, val_main_call0_cst_apply, val_main_call0_v1_apply,
    val_main_call0_v0_apply, down_at, Ideal.ofBits_def, Ideal.ofBits_one_f32]
  rfl

/-- The gate at (b, s, o). -/
theorem gate_at (b : Fin 4) (s : Fin 2048) (o : Fin 4096) :
    val_main_v37 (F := Ideal) x0 x5 x6 x7 x8 x9 (ix3 b s o)
      = gate (fun d => x0 (ix3 b s d)) (fun d => x5 (ix1 d)) (fun d => x6 (ix1 d)) (fun k d => x7 (ix2 k d))
          (fun k => x8 (ix2 o k)) (x9 ix0) := by
  have el : ∀ k, lidx_main_v34 (ix3 b s o) k = ix3 b s k := fun k => funext fun a => Fin.ext (by
    match a with | ⟨0, _⟩ => rfl | ⟨1, _⟩ => rfl | ⟨2, _⟩ => rfl)
  have er : ∀ k, ridx_main_v34 (ix3 b s o) k = ix2 o k := fun k => funext fun a => Fin.ext (by
    match a with | ⟨0, _⟩ => rfl | ⟨1, _⟩ => rfl)
  simp only [val_main_v37_apply, val_main_v36_apply, val_main_v35_apply, val_main_v34_apply, el, er, activated_at]
  rfl

/-- The base layer at (b, s, o). -/
theorem base_at (b : Fin 4) (s : Fin 2048) (o : Fin 4096) :
    val_main_v3 (F := Ideal) x0 x1 x2 (ix3 b s o)
      = base (fun d => x0 (ix3 b s d)) (fun d => x1 (ix2 o d)) (x2 (ix1 o)) := by
  have el : ∀ d, lidx_main_v0 (ix3 b s o) d = ix3 b s d := fun d => funext fun a => Fin.ext (by
    match a with | ⟨0, _⟩ => rfl | ⟨1, _⟩ => rfl | ⟨2, _⟩ => rfl)
  have er : ∀ d, ridx_main_v0 (ix3 b s o) d = ix2 o d := fun d => funext fun a => Fin.ext (by
    match a with | ⟨0, _⟩ => rfl | ⟨1, _⟩ => rfl)
  have eb : idx_main_v1 (idx_main_v2 (ix3 b s o)) = ix1 o := funext fun a => Fin.ext (by
    match a with | ⟨0, _⟩ => rfl)
  simp only [val_main_v3_apply, val_main_v0_apply, val_main_v2_apply, val_main_v1_apply, el, er, eb]
  rfl

/-- The low-rank branch at (b, s, o). -/
theorem lowRank_at (b : Fin 4) (s : Fin 2048) (o : Fin 4096) :
    val_main_v7 (F := Ideal) x0 x3 x4 (ix3 b s o)
      = lowRank (fun d => x0 (ix3 b s d)) (fun r d => x3 (ix2 r d)) (fun r => x4 (ix2 o r)) := by
  have el5 : ∀ r, lidx_main_v5 (ix3 b s o) r = ix3 b s r := fun r => funext fun a => Fin.ext (by
    match a with | ⟨0, _⟩ => rfl | ⟨1, _⟩ => rfl | ⟨2, _⟩ => rfl)
  have er5 : ∀ r, ridx_main_v5 (ix3 b s o) r = ix2 o r := fun r => funext fun a => Fin.ext (by
    match a with | ⟨0, _⟩ => rfl | ⟨1, _⟩ => rfl)
  have el4 : ∀ (r : Fin 16) d, lidx_main_v4 (ix3 b s r) d = ix3 b s d := fun r d => funext fun a => Fin.ext (by
    match a with | ⟨0, _⟩ => rfl | ⟨1, _⟩ => rfl | ⟨2, _⟩ => rfl)
  have er4 : ∀ (r : Fin 16) d, ridx_main_v4 (ix3 b s r) d = ix2 r d := fun r d => funext fun a => Fin.ext (by
    match a with | ⟨0, _⟩ => rfl | ⟨1, _⟩ => rfl)
  simp only [val_main_v7_apply, val_main_v5_apply, val_main_v6_apply, val_main_cst_apply, val_main_v4_apply, el5, er5,
    el4, er4]
  rfl

/-- THE REFERENCE AT (b, s, o): the specification's entry of row (b, s) at column o. -/
theorem result_at (b : Fin 4) (s : Fin 2048) (o : Fin 4096) :
    val_main_v41 (F := Ideal) x0 x1 x2 x3 x4 x5 x6 x7 x8 x9 (ix3 b s o)
      = entry (fun d => x0 (ix3 b s d)) (fun d => x1 (ix2 o d)) (x2 (ix1 o)) (fun r d => x3 (ix2 r d))
          (fun r => x4 (ix2 o r)) (fun d => x5 (ix1 d)) (fun d => x6 (ix1 d)) (fun k d => x7 (ix2 k d))
          (fun k => x8 (ix2 o k)) (x9 ix0) := by
  simp only [val_main_v41_apply, val_main_v40_apply, val_main_v39_apply, val_main_v38_apply, val_main_cst_5_apply,
    base_at, lowRank_at, gate_at]
  rfl

end Cert.ReferenceIdeal.RefValue

end
-- ==== Proof.lean ====
/-
  A linear layer with a gated low-rank correction: the fused kernel against its jnp reference, over the extended reals.

  Both programs compute, for every input row (b, s) and output column o,
      Σ_d x_d · W_{o,d} + bias_o  +  (1 + α · tanh (Σ_k silu (Σ_d n_d · Wd_{k,d}) · Wu_{o,k})) · 2 · Σ_r (Σ_d x_d · A_{r,d}) · B_{o,r},
  where n is the row normalised by its own mean and variance (sums over the 4096 entries divided by 4096, ε added to
  the variance), scaled and shifted. The reference does it for the whole [4, 2048, 4096] input at once; the kernel
  flattens the input to [8192, 4096], runs one body per 128 × 512 output block on the block's 128 input rows and 512
  weight rows, and reshapes back. Its narrowings to a 16-bit format before the products are the identity on extended
  reals, its row sums and products are the same sums, and the reference's z · (1 / (1 + exp (−z))) is the kernel's
  z · logistic z. The same operations are applied in the same order on both sides, so no finiteness of the inputs is used.

  Modules: GatedLowRank (the entry as a function of one row and one column's coefficients), BodyEntry (what the body
  stores at an entry of its block), BlocksToArray (each point writes back a block of one function; the blocks cover
  the output), KernelResult (the reshapes around the call; the kernel program's run), RefEntry (the reference read at
  an index). The frames of the two kernel programs and the reference's run are the generated ones.
-/
import proofs.«140234_j42717744726341_1_alg».proof.Defs
import proofs.«140234_j42717744726341_1_alg».proof.Proof.Gen.Kernel
import proofs.«140234_j42717744726341_1_alg».proof.Proof.Gen.Kernel.Skeleton
import proofs.«140234_j42717744726341_1_alg».proof.Proof.Gen.Kernel.Launch
import proofs.«140234_j42717744726341_1_alg».proof.Proof.Gen.Kernel.Points
import proofs.«140234_j42717744726341_1_alg».proof.Proof.Gen.Kernel.Frame
import proofs.«140234_j42717744726341_1_alg».proof.Proof.Gen.KernelIdeal
import proofs.«140234_j42717744726341_1_alg».proof.Proof.Gen.KernelIdeal.Skeleton
import proofs.«140234_j42717744726341_1_alg».proof.Proof.Gen.KernelIdeal.Launch
import proofs.«140234_j42717744726341_1_alg».proof.Proof.Gen.KernelIdeal.Points
import proofs.«140234_j42717744726341_1_alg».proof.Proof.Gen.KernelIdeal.Frame
import proofs.«140234_j42717744726341_1_alg».proof.Proof.Gen.ReferenceIdeal
import proofs.«140234_j42717744726341_1_alg».proof.Proof.Gen.Pre_finite_inputs
import proofs.«140234_j42717744726341_1_alg».proof.Proof.Gen.ReferenceIdeal.Run
import proofs.«140234_j42717744726341_1_alg».proof.Proof.Gen.ReferenceIdeal.Read
import proofs.«140234_j42717744726341_1_alg».proof.Proof.KernelResult
import proofs.«140234_j42717744726341_1_alg».proof.Proof.RefEntry
import Idealize.ShloMosaic.Adequacy
import Idealize.ShloMosaic.Init

noncomputable section

namespace Cert.Proof

open Idealize.ShloMosaic Idealize.ShloMosaic.ValueIdx Idealize.SL.Sem

/-- The word-level kernel program runs and keeps its arguments: the generated frame. -/
theorem frame_kernel : Cert.frame_Kernel (hKernel := Cert.Kernel.Gen.facts) (hPre_finite_inputs := Cert.Pre_finite_inputs.Gen.facts) :=
  fun m ρ _ => Cert.Kernel.Gen.frame m ρ

/-- So does the idealized kernel program. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its generated run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments both idealized programs end with the same result: at every index
    (b, s, o) it is the specification's entry of input row (b, s) at column o — the kernel's by the blocks-to-array
    argument and the reshapes, the reference's stage by stage. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.ResultValue.result m c, Cert.KernelIdeal.ResultValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  rw [Cert.ReferenceIdeal.Read.val_main_v41_eq, a0, a1, a2, a3, a4, a5, a6, a7, a8, a9]
  funext i
  obtain ⟨b, s, o, rfl⟩ : ∃ (b : Fin 4) (s : Fin 2048) (o : Fin 4096), i = ix3 b s o := ⟨i 0, i 1, i 2, eq_ix3 i⟩
  exact Cert.ReferenceIdeal.RefValue.result_at _ _ _ _ _ _ _ _ _ _ b s o

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
